-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel

variable [Facts]

def fn {F : FTy → Type} [FloatOps F] (main_arg0 : FVec F S32x1024x256 .f32) (main_arg1 : FVec F S32x1024x256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S32x1024x256 .f32 := Host.absf main_arg1
  let main_cst_0 : FVec F S_ .f32 := constant S_ .f32 0x7F800000#32
  let main_v5 : FVec F S32x1024x256 .f32 := broadcastInDim S32x1024x256 ![] bcast_S_S32x1024x256 main_cst_0
  let main_v6 : IVec S32x1024x256 1 := cmpf .olt main_v4 main_v5
  let main_c_1 : IVec S_ 1 := constantI S_ 1 1#1
  let main_v7 : IVec S_ 1 := (fun x v => Host.reduce IntOp.andi x v reducesTo_S32x1024x256_S_d0_1_2 h_S_) main_v6 main_c_1
  let main_v8 : IVec S_ 1 := andi main_v3 main_v7
  main_v8
-- ==== Kernel.lean ====
abbrev S32x1024x256 : Shape := ⟨3, ![32, 1024, 256]⟩
abbrev S32x1x1024 : Shape := ⟨3, ![32, 1, 1024]⟩
abbrev S1x1024x256 : Shape := ⟨3, ![1, 1024, 256]⟩
abbrev S1x1x1024 : Shape := ⟨3, ![1, 1, 1024]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S32x1024 : Shape := ⟨2, ![32, 1024]⟩
abbrev S32x2048 : Shape := ⟨2, ![32, 2048]⟩

abbrev nBuf : Space → Nat
  | .hbm => 7
  | .vmem => 8
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S32x1x1024, .f32⟩
  | .hbm, ⟨3, _⟩ => ⟨S32x1x1024, .f32⟩
  | .hbm, ⟨4, _⟩ => ⟨S32x1024, .f32⟩
  | .hbm, ⟨5, _⟩ => ⟨S32x1024, .f32⟩
  | .hbm, ⟨6, _⟩ => ⟨S32x2048, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  transposes_S1024x256_p1_0_S256x1024 : S1024x256.Transposes [1, 0] S256x1024
  reduces_S1024x1024_S1024 : S1024x1024.Reduces [0] S1024
  reduces_S1024x1024_S1024_2 : S1024x1024.Reduces [1] S1024
  shapeCasts_S1024_S1x1x1024 : S1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S32x1x1024_S32x1024 : S32x1x1024.ShapeCasts S32x1024
  concatenates_S32x1024_S32x1024_S32x2048_d1 : Shape.Concatenates [S32x1024, S32x1024] S32x2048 1
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S32x1024x256.size a
  hwx0_1 : ∀ i : grid0.Coords, EltTy.bits .f32 = 32 ∨ (Rect.block (s := S32x1024x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S32x1x1024.size a
  hwx0_2 : ∀ i : grid0.Coords, EltTy.bits .f32 = 32 ∨ (Rect.block (s := S32x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S32x1x1024.size a
  hwx0_3 : ∀ i : grid0.Coords, EltTy.bits .f32 = 32 ∨ (Rect.block (s := S32x1x1024) S1x1x1024.size (cc0_transform_3 i) (hinb0_3 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S32x1024x1024 : Shape := ⟨3, ![32, 1024, 1024]⟩
abbrev S_ : Shape := ⟨0, ![]⟩
abbrev S32x1024 : Shape := ⟨2, ![32, 1024]⟩
abbrev S32x2048 : Shape := ⟨2, ![32, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S32x1024x1024, .f32⟩
  | .hbm, ⟨3, _⟩ => ⟨S_, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x2048, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S32x1024x1024_S32x1024_d1 : S32x1024x1024.ReducesTo [1] S32x1024
  h_S_ : 0 < S_.numel
  reducesTo_S32x1024x1024_S32x1024_d2 : S32x1024x1024.ReducesTo [2] S32x1024
  concatenates_S32x1024_S32x1024_S32x2048_d1 : Shape.Concatenates [S32x1024, S32x1024] S32x2048 1
  dot_S32x1024x256_S32x1024x256_S32x1024x1024_2_2_1_1_0_0_wf : DotDims.WF S32x1024x256 S32x1024x256 S32x1024x1024 [2] [2] [1] [1] [0] [0]

variable [Facts₀]

def dot_S32x1024x256_S32x1024x256_S32x1024x1024_2_2_1_1_0_0 : DotDims S32x1024x256 S32x1024x256 S32x1024x1024 where
  lhsContracting := [2]
  rhsContracting := [2]
  lhsNonContracting := [1]
  rhsNonContracting := [1]
  lhsBatch := [0]
  rhsBatch := [0]
  wf := dot_S32x1024x256_S32x1024x256_S32x1024x1024_2_2_1_1_0_0_wf

class Facts : Prop extends Facts₀ where

variable [Facts]
-- ==== Proof.Spec.lean ====
/-
  The two pooled totals of a batched product of rows.

  For arrays x, y of shape [32, 1024, 256], the score of row n of x against row m of y in batch b is
      s b n m = ∑ d < 256, x (b, n, d) · y (b, m, d).
  Summing the scores over n gives a total for every (b, m); summing over m gives a total for every (b, n).
  All sums are finite sums in the extended reals, whose addition is commutative and associative, so the order
  and the grouping in which a program adds the terms does not matter.
-/
import Idealize.ShloMosaic.PureOps.Ideal
import Idealize.ShloMosaic.Lib.ValueIdx

noncomputable section

open scoped BigOperators

namespace Cert.Pool

open Idealize.ShloMosaic Idealize.ShloMosaic.ValueIdx

/-- An argument array: 32 batches of 1024 rows of 256 entries. -/
abbrev Arr : Type := (⟨3, ![32, 1024, 256]⟩ : Shape).Idx → EReal

/-- The score of row `n` of `x` against row `m` of `y` in batch `b`: their inner product. -/
def score (x y : Arr) (b : Fin 32) (n m : Fin 1024) : EReal :=
  ∑ d : Fin 256, x (ix3 b n d) * y (ix3 b m d)

/-- The scores summed over the rows of `x`: one total per batch and row of `y`. -/
def overRows (x y : Arr) : (⟨2, ![32, 1024]⟩ : Shape).Idx → EReal :=
  fun i => ∑ n : Fin 1024, score x y (i 0) n (i 1)

/-- The scores summed over the rows of `y`: one total per batch and row of `x`. -/
def overCols (x y : Arr) : (⟨2, ![32, 1024]⟩ : Shape).Idx → EReal :=
  fun i => ∑ k : Fin 1024, score x y (i 0) (i 1) k

/-- The totals over the rows of `x` laid out with a unit middle axis, [32, 1, 1024]. -/
def overRows3 (x y : Arr) : (⟨3, ![32, 1, 1024]⟩ : Shape).Idx → EReal :=
  fun i => ∑ n : Fin 1024, score x y (i 0) n (i 2)

/-- The totals over the rows of `y` laid out with a unit middle axis, [32, 1, 1024]. -/
def overCols3 (x y : Arr) : (⟨3, ![32, 1, 1024]⟩ : Shape).Idx → EReal :=
  fun i => ∑ k : Fin 1024, score x y (i 0) (i 2) k

end Cert.Pool

end
-- ==== Proof.RefSide.lean ====
/-
  The reference's two reductions are the pooled totals.

  The reference forms the whole array of scores  v0 (b, n, m) = ∑ d, x (b, n, d) · y (b, m, d)  by one batched
  product, then adds it up along its axis 1 (over n) and along its axis 2 (over m), each time starting from zero.
  Read at an entry these are the totals of `Cert.Pool`.
-/
import proofs.«175580_j6691559047734_1_alg».proof.Proof.Gen.ReferenceIdeal.Read
import proofs.«175580_j6691559047734_1_alg».proof.Proof.Spec

noncomputable section

open scoped BigOperators

namespace Cert.Pool.Ref

open Cert.ReferenceIdeal Cert.ReferenceIdeal.Read Idealize.ShloMosaic Idealize.ShloMosaic.ValueIdx

/-- The batched product at entry (b, n, m) is the score of rows n and m of batch b. -/
theorem scores_at (x y : Arr) (b : Fin 32) (n k : Fin 1024) :
    val_main_v0 (F := Ideal) x y (ix3 b n k) = score x y b n k := by
  rw [val_main_v0_apply]
  unfold score
  refine Finset.sum_congr rfl fun d _ => ?_
  have e1 : lidx_main_v0 (ix3 b n k) d = ix3 b n d :=
    funext fun a => Fin.ext (by match a with | ⟨0, _⟩ => rfl | ⟨1, _⟩ => rfl | ⟨2, _⟩ => rfl)
  have e2 : ridx_main_v0 (ix3 b n k) d = ix3 b k d :=
    funext fun a => Fin.ext (by match a with | ⟨0, _⟩ => rfl | ⟨1, _⟩ => rfl | ⟨2, _⟩ => rfl)
  rw [e1, e2]

/-- The sum along axis 1, from zero: the totals over the rows of x. -/
theorem sum_axis1 (x y : Arr) : val_main_v1 (F := Ideal) x y = overRows x y := by
  funext i
  rw [val_main_v1_apply]
  have e : ∀ k : Fin 1024, idx_main_v1 i k = ix3 (i 0) k (i 1) := fun k =>
    funext fun a => Fin.ext (by match a with | ⟨0, _⟩ => rfl | ⟨1, _⟩ => rfl | ⟨2, _⟩ => rfl)
  simp only [e]
  show Ideal.ofBits .f32 0x00000000#32 + _ = _
  rw [Ideal.ofBits_zero_f32, zero_add]
  exact Finset.sum_congr rfl fun k _ => scores_at x y (i 0) k (i 1)

/-- The sum along axis 2, from zero: the totals over the rows of y. -/
theorem sum_axis2 (x y : Arr) : val_main_v2 (F := Ideal) x y = overCols x y := by
  funext i
  rw [val_main_v2_apply]
  have e : ∀ k : Fin 1024, idx_main_v2 i k = ix3 (i 0) (i 1) k := fun k =>
    funext fun a => Fin.ext (by match a with | ⟨0, _⟩ => rfl | ⟨1, _⟩ => rfl | ⟨2, _⟩ => rfl)
  simp only [e]
  show Ideal.ofBits .f32 0x00000000#32 + _ = _
  rw [Ideal.ofBits_zero_f32, zero_add]
  exact Finset.sum_congr rfl fun k _ => scores_at x y (i 0) (i 1) k

end Cert.Pool.Ref

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.Body.lean ====
/-
  What the kernel body computes from one batch's two blocks, entry by entry.

  At one grid point the body holds a [1, 1024, 256] block of x and one of y. Dropping the unit axis and
  changing the float format do nothing to the values; transposing the block of y and multiplying gives the
  [1024, 1024] array of scores  s (n, m) = ∑ d, xblk (0, n, d) · yblk (0, m, d);  adding it up along its first
  axis gives one total per m, along its second axis one total per n; both are stored with two unit axes in front.
-/
import proofs.«175580_j6691559047734_1_alg».proof.Proof.Gen.KernelIdeal.Skeleton
import proofs.«175580_j6691559047734_1_alg».proof.Proof.LibDotRowsCols
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Pool.Body

open Cert.KernelIdeal Cert.KernelIdeal.Gen Idealize.ShloMosaic Idealize.ShloMosaic.ValueIdx

/-- The body's product contracts the left operand's axis 1 with the right operand's axis 0 and batches nothing. -/
theorem rowsCols : Cert.Lib.DotRowsCols.RowsCols dot_S1024x256_S256x1024_S1024x1024_1_0_0_1_n_n :=
  ⟨rfl, rfl, rfl, rfl, rfl, rfl⟩

/-- The product at entry (n, m): the inner product of row n of the block of x with row m of the block of y. -/
theorem scores_at (xb yb : Vec Ideal S1x1024x256 .f32) (n k : Fin 1024) :
    k0_pay1 (F := Ideal) xb yb (ix2 n k) = ∑ d : Fin 256, xb (ix3 0 n d) * yb (ix3 0 k d) := by
  unfold k0_pay1
  dsimp only
  refine (rowsCols.matmul_zero_apply none _ _ (ix2 n k)).trans ?_
  refine Finset.sum_congr rfl fun d _ => ?_
  refine congrArg₂ (· * ·) ?_ ?_
  · exact shapeCast_1ab_ab_apply xb _ n d
  · refine (transpose_ix2_apply _ _ d k).trans ?_
    exact shapeCast_1ab_ab_apply yb _ k d

/-- The stored totals along the first axis: at (0, 0, m) the sum over n of the scores (n, m). -/
theorem rows_at (xb yb : Vec Ideal S1x1024x256 .f32) (u v : Fin 1) (k : Fin 1024) :
    k0_pay2 (F := Ideal) xb yb (ix3 u v k) = ∑ n : Fin 1024, k0_pay1 (F := Ideal) xb yb (ix2 n k) := by
  unfold k0_pay2
  dsimp only
  refine (shapeCast_apply _ _ (ix3 u v k) (ix1 k) ?_).trans ?_
  · rw [Shape.rowMajor_val_one, Shape.rowMajor_val_three]
    show k.val = (u.val * 1 + v.val) * 1024 + k.val
    omega
  refine (Ideal.multiReduction_add_single _ _ _ _ _ (ix1 k)).trans ?_
  refine Finset.sum_congr rfl fun n _ => ?_
  refine congrArg _ ?_
  exact funext fun a => Fin.ext (by match a with | ⟨0, _⟩ => rfl | ⟨1, _⟩ => rfl)

/-- The stored totals along the second axis: at (0, 0, n) the sum over m of the scores (n, m). -/
theorem cols_at (xb yb : Vec Ideal S1x1024x256 .f32) (u v : Fin 1) (n : Fin 1024) :
    k0_pay3 (F := Ideal) xb yb (ix3 u v n) = ∑ k : Fin 1024, k0_pay1 (F := Ideal) xb yb (ix2 n k) := by
  unfold k0_pay3
  dsimp only
  refine (shapeCast_apply _ _ (ix3 u v n) (ix1 n) ?_).trans ?_
  · rw [Shape.rowMajor_val_one, Shape.rowMajor_val_three]
    show n.val = (u.val * 1 + v.val) * 1024 + n.val
    omega
  refine (Ideal.multiReduction_add_single _ _ _ _ _ (ix1 n)).trans ?_
  refine Finset.sum_congr rfl fun k _ => ?_
  refine congrArg _ ?_
  exact funext fun a => Fin.ext (by match a with | ⟨0, _⟩ => rfl | ⟨1, _⟩ => rfl)

end Cert.Pool.Body

end
-- ==== Proof.Blocks.lean ====
/-
  From the blocks the grid points write back to the two whole result arrays.

  The grid has one point per batch. At point t the two input windows hold batch t of x and of y (blocks
  [1, 1024, 256] at block index (t, 0, 0)) and each output window's block [1, 1, 1024] goes back to block index
  (t, 0, 0) of its [32, 1, 1024] array. So what point t writes back is block t of the array of pooled totals
  of the WHOLE arguments, the blocks of the 32 points tile each result array, and each result array ends
  holding those totals.
-/
import proofs.«175580_j6691559047734_1_alg».proof.Proof.Gen.KernelIdeal.Frame
import proofs.«175580_j6691559047734_1_alg».proof.Proof.Body
import proofs.«175580_j6691559047734_1_alg».proof.Proof.Spec
import Idealize.ShloMosaic.Lib.Pipeline.Value

set_option maxRecDepth 16384

noncomputable section

open scoped BigOperators

namespace Cert.Pool.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem zero3 : (![0, 0, 0] : Fin 3 → Nat) = fun _ => 0 := funext fun a => by fin_cases a <;> rfl

/-- The printed index maps, decided over the 32 grid points: every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The batch a grid point works on. -/
abbrev batch (t : Fin cfg0.N) : Fin 32 := t.cast N_0

/-- Entry (0, n, d) of the block of x at point t is entry (t, n, d) of x. -/
theorem emb_x (t : Fin cfg0.N) (n : Fin 1024) (d : Fin 256) :
    ((cfg0.win 0).blk t).view.emb (ix3 (0 : Fin 1) n d) = ix3 (batch t) n d := by
  obtain ⟨a0, a1, a2, -⟩ := idx_facts t
  funext a; apply Fin.ext
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 256 + 1 * d.val = d.val; omega

/-- Entry (0, n, d) of the block of y at point t is entry (t, n, d) of y. -/
theorem emb_y (t : Fin cfg0.N) (n : Fin 1024) (d : Fin 256) :
    ((cfg0.win 1).blk t).view.emb (ix3 (0 : Fin 1) n d) = ix3 (batch t) n d := by
  obtain ⟨-, -, -, a0, a1, a2, -⟩ := idx_facts t
  funext a; apply Fin.ext
  match a with
  | ⟨0, _⟩ => show win0_1.index t (0 : Fin 3) * 1 + 1 * 0 = t.val; omega
  | ⟨1, _⟩ => show win0_1.index t (1 : Fin 3) * 1024 + 1 * n.val = n.val; omega
  | ⟨2, _⟩ => show win0_1.index t (2 : Fin 3) * 256 + 1 * d.val = d.val; omega

/-- Entry j of the first result's block at point t is entry (t, 0, j 2) of that result. -/
theorem emb_r (t : Fin cfg0.N) (j : S1x1x1024.Idx) :
    ((cfg0.win 2).blk t).view.emb j = ix3 (batch t) (0 : Fin 1) (j 2) := by
  obtain ⟨-, -, -, -, -, -, a0, a1, a2, -⟩ := idx_facts t
  funext a; apply Fin.ext
  match a with
  | ⟨0, _⟩ => show win0_2.index t (0 : Fin 3) * 1 + 1 * (j 0).val = t.val; have h : (j 0).val < 1 := (j 0).isLt; omega
  | ⟨1, _⟩ => show win0_2.index t (1 : Fin 3) * 1 + 1 * (j 1).val = 0; have h : (j 1).val < 1 := (j 1).isLt; omega
  | ⟨2, _⟩ => show win0_2.index t (2 : Fin 3) * 1024 + 1 * (j 2).val = (j 2).val; omega

/-- Entry j of the second result's block at point t is entry (t, 0, j 2) of that result. -/
theorem emb_c (t : Fin cfg0.N) (j : S1x1x1024.Idx) :
    ((cfg0.win 3).blk t).view.emb j = ix3 (batch t) (0 : Fin 1) (j 2) := by
  obtain ⟨-, -, -, -, -, -, -, -, -, a0, a1, a2⟩ := idx_facts t
  funext a; apply Fin.ext
  match a with
  | ⟨0, _⟩ => show win0_3.index t (0 : Fin 3) * 1 + 1 * (j 0).val = t.val; have h : (j 0).val < 1 := (j 0).isLt; omega
  | ⟨1, _⟩ => show win0_3.index t (1 : Fin 3) * 1 + 1 * (j 1).val = 0; have h : (j 1).val < 1 := (j 1).isLt; omega
  | ⟨2, _⟩ => show win0_3.index t (2 : Fin 3) * 1024 + 1 * (j 2).val = (j 2).val; omega

/-- The block of x at point t, read at (0, n, d). -/
theorem xblk_at (c : Dev nD) (t : Fin cfg0.N) (n : Fin 1024) (d : Fin 256) :
    iblk m c 0 t (ix3 (0 : Fin 1) n d) = V m c main_arg0 (ix3 (batch t) n d) := by
  show V m c main_arg0 (((cfg0.win 0).blk t).view.emb (ix3 (0 : Fin 1) n d)) = _
  rw [emb_x]

/-- The block of y at point t, read at (0, n, d). -/
theorem yblk_at (c : Dev nD) (t : Fin cfg0.N) (n : Fin 1024) (d : Fin 256) :
    iblk m c 1 t (ix3 (0 : Fin 1) n d) = V m c main_arg1 (ix3 (batch t) n d) := by
  show V m c main_arg1 (((cfg0.win 1).blk t).view.emb (ix3 (0 : Fin 1) n d)) = _
  rw [emb_y]

/-- The body's product at point t is the array of scores of batch t. -/
theorem scores_blk (c : Dev nD) (t : Fin cfg0.N) (n k : Fin 1024) :
    k0_pay1 (F := Ideal) (iblk m c 0 t) (iblk m c 1 t) (ix2 n k) = score (V m c main_arg0) (V m c main_arg1) (batch t) n k := by
  refine (Body.scores_at _ _ n k).trans ?_
  unfold score
  exact Finset.sum_congr rfl fun d _ => congrArg₂ (· * ·) (xblk_at m c t n d) (yblk_at m c t k d)

/-- WHAT POINT t WRITES BACK to the first result: block t of the totals over the rows of x. -/
theorem flushed_r (c : Dev nD) (t : Fin cfg0.N) :
    (dats m 0 c).flushed 2 t = ((cfg0.win 2).blk t).view.read (Elt Ideal) (overRows3 (V m c main_arg0) (V m c main_arg1)) := by
  show (cfg0.win 2).cut (grid0.coords t) ((dats m 0 c).after 2 t) = _
  rw [after0_2]
  unfold out0_2
  rw [View.canon_unit_zero zero3]
  simp only [View.ld_unit_zero (S := S1x1024x256) zero3]
  funext j
  show k0_pay2 (F := Ideal) (iblk m c 0 t) (iblk m c 1 t) j
    = overRows3 (V m c main_arg0) (V m c main_arg1) (((cfg0.win 2).blk t).view.emb j)
  rw [emb_r]
  have hj : j = ix3 (j 0) (j 1) (j 2) := eq_ix3 j
  rw [hj]
  refine (Body.rows_at _ _ _ _ _).trans ?_
  unfold overRows3
  exact Finset.sum_congr rfl fun n _ => scores_blk m c t n (j 2)

/-- WHAT POINT t WRITES BACK to the second result: block t of the totals over the rows of y. -/
theorem flushed_c (c : Dev nD) (t : Fin cfg0.N) :
    (dats m 0 c).flushed 3 t = ((cfg0.win 3).blk t).view.read (Elt Ideal) (overCols3 (V m c main_arg0) (V m c main_arg1)) := by
  show (cfg0.win 3).cut (grid0.coords t) ((dats m 0 c).after 3 t) = _
  rw [after0_3]
  unfold out0_3
  rw [View.canon_unit_zero zero3]
  simp only [View.ld_unit_zero (S := S1x1024x256) zero3]
  funext j
  show k0_pay3 (F := Ideal) (iblk m c 0 t) (iblk m c 1 t) j
    = overCols3 (V m c main_arg0) (V m c main_arg1) (((cfg0.win 3).blk t).view.emb j)
  rw [emb_c]
  have hj : j = ix3 (j 0) (j 1) (j 2) := eq_ix3 j
  rw [hj]
  refine (Body.cols_at _ _ _ _ _).trans ?_
  unfold overCols3
  exact Finset.sum_congr rfl fun k _ => scores_blk m c t (j 2) k

/-- An index of the first result is in point t's block iff each coordinate is in the block's range on its axis. -/
theorem mem_blk_r (t : Fin cfg0.N) (i : S32x1x1024.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v0_0).slice (win0_2.rect t)).set ↔ _
  rw [View.set_slice_whole, Rect.mem_set_unit]
  exact Iff.rfl

/-- The same for the second result. -/
theorem mem_blk_c (t : Fin cfg0.N) (i : S32x1x1024.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v0_1).slice (win0_3.rect t)).set ↔ _
  rw [View.set_slice_whole, Rect.mem_set_unit]
  exact Iff.rfl

/-- Entry (b, 0, k) of the first result lies in the block of the point of batch b. -/
theorem cover_r (i : S32x1x1024.Idx) :
    ∃ t : Fin cfg0.N, (cfg0.win 2).flush t = true ∧ i ∈ ((cfg0.win 2).blk t).view.set := by
  have h0 : (i 0).val < 32 := (i 0).isLt
  have h1 : (i 1).val < 1 := (i 1).isLt
  have h2 : (i 2).val < 1024 := (i 2).isLt
  refine ⟨(i 0).cast N_0.symm, flush0_2 _, ?_⟩
  obtain ⟨-, -, -, -, -, -, a0, a1, a2, -⟩ := idx_facts ((i 0).cast N_0.symm)
  rw [mem_blk_r]
  intro a
  match a with
  | ⟨0, _⟩ => show win0_2.index _ (0 : Fin 3) * 1 ≤ (i 0).val ∧ (i 0).val < win0_2.index _ (0 : Fin 3) * 1 + 1; rw [a0]; show (i 0).val * 1 ≤ (i 0).val ∧ (i 0).val < (i 0).val * 1 + 1; omega
  | ⟨1, _⟩ => show win0_2.index _ (1 : Fin 3) * 1 ≤ (i 1).val ∧ (i 1).val < win0_2.index _ (1 : Fin 3) * 1 + 1; rw [a1]; omega
  | ⟨2, _⟩ => show win0_2.index _ (2 : Fin 3) * 1024 ≤ (i 2).val ∧ (i 2).val < win0_2.index _ (2 : Fin 3) * 1024 + 1024; rw [a2]; omega

/-- Entry (b, 0, k) of the second result lies in the block of the point of batch b. -/
theorem cover_c (i : S32x1x1024.Idx) :
    ∃ t : Fin cfg0.N, (cfg0.win 3).flush t = true ∧ i ∈ ((cfg0.win 3).blk t).view.set := by
  have h0 : (i 0).val < 32 := (i 0).isLt
  have h1 : (i 1).val < 1 := (i 1).isLt
  have h2 : (i 2).val < 1024 := (i 2).isLt
  refine ⟨(i 0).cast N_0.symm, flush0_3 _, ?_⟩
  obtain ⟨-, -, -, -, -, -, -, -, -, a0, a1, a2⟩ := idx_facts ((i 0).cast N_0.symm)
  rw [mem_blk_c]
  intro a
  match a with
  | ⟨0, _⟩ => show win0_3.index _ (0 : Fin 3) * 1 ≤ (i 0).val ∧ (i 0).val < win0_3.index _ (0 : Fin 3) * 1 + 1; rw [a0]; show (i 0).val * 1 ≤ (i 0).val ∧ (i 0).val < (i 0).val * 1 + 1; omega
  | ⟨1, _⟩ => show win0_3.index _ (1 : Fin 3) * 1 ≤ (i 1).val ∧ (i 1).val < win0_3.index _ (1 : Fin 3) * 1 + 1; rw [a1]; omega
  | ⟨2, _⟩ => show win0_3.index _ (2 : Fin 3) * 1024 ≤ (i 2).val ∧ (i 2).val < win0_3.index _ (2 : Fin 3) * 1024 + 1024; rw [a2]; omega

/-- THE FIRST RESULT ARRAY after the run: the totals over the rows of x, of the arguments as launched. -/
theorem final_r (c : Dev nD) :
    (dats m 0 c).arrAt 2 cfg0.N = overRows3 (m ((c : Thread nD τ).loc main_arg0)) (m ((c : Thread nD τ).loc main_arg1)) :=
  (dats m 0 c).arrAt_eq_of_cover 2 (overRows3 (V m c main_arg0) (V m c main_arg1)) (fun t _ => flushed_r m c t) cover_r

/-- THE SECOND RESULT ARRAY after the run: the totals over the rows of y. -/
theorem final_c (c : Dev nD) :
    (dats m 0 c).arrAt 3 cfg0.N = overCols3 (m ((c : Thread nD τ).loc main_arg0)) (m ((c : Thread nD τ).loc main_arg1)) :=
  (dats m 0 c).arrAt_eq_of_cover 3 (overCols3 (V m c main_arg0) (V m c main_arg1)) (fun t _ => flushed_c m c t) cover_c

end Cert.Pool.Blocks

end
-- ==== Proof.Tail.lean ====
/-
  The kernel program's result: after the region, the two [32, 1, 1024] result arrays lose their unit axis and are
  laid side by side along axis 1.

  Dropping the unit middle axis of the totals laid out [32, 1, 1024] gives the totals laid out [32, 1024]
  (entry (b, k) has the same row-major position as entry (b, 0, k)), so the program's result is the totals over
  the rows of x followed, along axis 1, by the totals over the rows of y.
-/
import proofs.«175580_j6691559047734_1_alg».proof.Proof.Blocks
import Idealize.ShloMosaic.Lib.StableHlo.Run

set_option maxRecDepth 16384

noncomputable section

open scoped BigOperators

namespace Cert.Pool.Tail

open Cert.KernelIdeal Cert.KernelIdeal.Gen Idealize.ShloMosaic Idealize.ShloMosaic.TcCoe Idealize.ShloMosaic.ValueIdx
open Idealize.SL.Sem Idealize.ShloMosaic.StableHlo

/-- Dropping the unit axis of the totals over the rows of x. -/
theorem squeeze_rows (x y : Arr) (h : S32x1x1024.ShapeCasts S32x1024) :
    shapeCast S32x1024 (overRows3 x y) h = overRows x y := by
  funext i
  refine (shapeCast_apply _ h i (ix3 (i 0) (0 : Fin 1) (i 1)) ?_).trans rfl
  rw [Shape.rowMajor_val_three, Shape.rowMajor_val_two]
  show ((i 0).val * 1 + 0) * 1024 + (i 1).val = (i 0).val * 1024 + (i 1).val
  omega

/-- Dropping the unit axis of the totals over the rows of y. -/
theorem squeeze_cols (x y : Arr) (h : S32x1x1024.ShapeCasts S32x1024) :
    shapeCast S32x1024 (overCols3 x y) h = overCols x y := by
  funext i
  refine (shapeCast_apply _ h i (ix3 (i 0) (0 : Fin 1) (i 1)) ?_).trans rfl
  rw [Shape.rowMajor_val_three, Shape.rowMajor_val_two]
  show ((i 0).val * 1 + 0) * 1024 + (i 1).val = (i 0).val * 1024 + (i 1).val
  omega

variable (m : (ℓ : Loc nD τ sig) → Buf (Elt Ideal) ℓ) (ρ : Dev nD → PrngReg)

/-- What the lines after the region leave in the program's result buffer. -/
theorem result (c : Dev nD) :
    Pipeline.afterTail₀ cfgs (dats m) 0 (V0 m) [hostOps1] c main_v3
      = concatenate S32x2048 1
          [⟨S32x1024, overRows (m ((c : Thread nD τ).loc main_arg0)) (m ((c : Thread nD τ).loc main_arg1))⟩,
           ⟨S32x1024, overCols (m ((c : Thread nD τ).loc main_arg0)) (m ((c : Thread nD τ).loc main_arg1))⟩]
          concatenates_S32x1024_S32x1024_S32x2048_d1 := by
  unfold Pipeline.afterTail₀
  show StableHlo.after hostOps1 _ (Proc.devRef .tc main_v3) = _
  after_results
  have er : Pipeline.withArrays (cfgs 0).spec c (V0 m c) (fun w => (dats m 0 c).arrAt w (cfgs 0).N) (Proc.devRef .tc main_v0_0)
      = overRows3 (m ((c : Thread nD τ).loc main_arg0)) (m ((c : Thread nD τ).loc main_arg1)) :=
    (Pipeline.withArrays_arr spec0 launch0.win.arr_inj c _ _ 2).trans (Blocks.final_r m c)
  have ec : Pipeline.withArrays (cfgs 0).spec c (V0 m c) (fun w => (dats m 0 c).arrAt w (cfgs 0).N) (Proc.devRef .tc main_v0_1)
      = overCols3 (m ((c : Thread nD τ).loc main_arg0)) (m ((c : Thread nD τ).loc main_arg1)) :=
    (Pipeline.withArrays_arr spec0 launch0.win.arr_inj c _ _ 3).trans (Blocks.final_c m c)
  rw [er, ec]
  show concatenate S32x2048 1
      [⟨S32x1024, shapeCast S32x1024 (overRows3 _ _) shapeCasts_S32x1x1024_S32x1024⟩,
       ⟨S32x1024, shapeCast S32x1024 (overCols3 _ _) shapeCasts_S32x1x1024_S32x1024⟩] _ = _
  rw [squeeze_rows, squeeze_cols]

/-- THE RUN, READ: every weakly fair execution of the kernel program ends with the result buffer at the two
    pooled totals side by side, and the arguments unchanged. -/
theorem run : θ_run defs (onTc (τ := τ) (main (F := Ideal))) ⟨m, fun _ => 0, ρ⟩ fun r => ∀ c : Dev nD,
      r.2.mem ((c.tc : Thread nD τ).loc main_v3)
        = concatenate S32x2048 1
            [⟨S32x1024, overRows (m ((c : Thread nD τ).loc main_arg0)) (m ((c : Thread nD τ).loc main_arg1))⟩,
             ⟨S32x1024, overCols (m ((c : Thread nD τ).loc main_arg0)) (m ((c : Thread nD τ).loc main_arg1))⟩]
            concatenates_S32x1024_S32x1024_S32x2048_d1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 rfl (by decide))).trans (result m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.Pool.Tail

end
-- ==== Proof.lean ====
/-
  The certificate of a batched product of rows pooled along both of its axes.

  The kernel works one batch per grid point: it multiplies the [1024, 256] block of x by the transposed
  [1024, 256] block of y, obtaining the 1024 × 1024 scores  s (n, m) = ∑ d, x (b, n, d) · y (b, m, d)  of the batch,
  adds them up over n and over m, and writes the two rows of totals back; the program then drops the unit axes
  and lays the two [32, 1024] arrays side by side. The reference forms all scores by one batched product, adds
  them up along axis 1 and along axis 2 from zero, and lays the results side by side in the same way.

  At the ideal values a change of float format is the identity and every sum is a finite sum of extended reals,
  so both programs compute, entry by entry, the same sums of the same products: the totals of `Cert.Pool`
  (Proof/Spec.lean). Proof/RefSide.lean reads the reference's two reductions as those totals, Proof/Body.lean
  reads the kernel body's stores at an entry, Proof/Blocks.lean assembles the blocks the 32 grid points write
  back into the two whole result arrays, and Proof/Tail.lean reads the lines after the region. No law that needs
  finite values is used, so the precondition is not opened.

  The three frames are the generated ones (the reference's is its run with the result dropped), and the
  idealization rewrote nothing, so `preserves` is trivial.
-/
import proofs.«175580_j6691559047734_1_alg».proof.Defs
import proofs.«175580_j6691559047734_1_alg».proof.Proof.Gen.Kernel
import proofs.«175580_j6691559047734_1_alg».proof.Proof.Gen.Kernel.Skeleton
import proofs.«175580_j6691559047734_1_alg».proof.Proof.Gen.Kernel.Launch
import proofs.«175580_j6691559047734_1_alg».proof.Proof.Gen.Kernel.Points
import proofs.«175580_j6691559047734_1_alg».proof.Proof.Gen.Kernel.Frame
import proofs.«175580_j6691559047734_1_alg».proof.Proof.Gen.KernelIdeal
import proofs.«175580_j6691559047734_1_alg».proof.Proof.Gen.KernelIdeal.Skeleton
import proofs.«175580_j6691559047734_1_alg».proof.Proof.Gen.KernelIdeal.Launch
import proofs.«175580_j6691559047734_1_alg».proof.Proof.Gen.KernelIdeal.Points
import proofs.«175580_j6691559047734_1_alg».proof.Proof.Gen.KernelIdeal.Frame
import proofs.«175580_j6691559047734_1_alg».proof.Proof.Gen.ReferenceIdeal
import proofs.«175580_j6691559047734_1_alg».proof.Proof.Gen.Pre_finite_inputs
import proofs.«175580_j6691559047734_1_alg».proof.Proof.Gen.ReferenceIdeal.Run
import proofs.«175580_j6691559047734_1_alg».proof.Proof.Gen.ReferenceIdeal.Read
import proofs.«175580_j6691559047734_1_alg».proof.Proof.RefSide
import proofs.«175580_j6691559047734_1_alg».proof.Proof.Tail
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Run from arguments that agree, the kernel program ends with its result at the two pooled totals side by side
    (Proof/Tail.lean) and the reference at its two reductions side by side, which are the same totals
    (Proof/RefSide.lean). -/
theorem algebraic : Cert.algebraic_KernelIdeal_ReferenceIdeal := by
  intro m ρ m' ρ' _ hagree
  refine ⟨_, Cert.Pool.Tail.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v3_eq]
  unfold Cert.ReferenceIdeal.Read.val_main_v3
  rw [Cert.Pool.Ref.sum_axis1, Cert.Pool.Ref.sum_axis2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
